-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S1x1 : Shape := ⟨2, ![1, 1]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩

abbrev nBuf : Space → Nat
  | .hbm => 20
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S1x1024, .f32⟩
  | .hbm, ⟨19, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1, .f32⟩
  | .local _ .vmem, ⟨4, _⟩ => ⟨S1024x1024, .f32⟩
  | .local _ .vmem, ⟨5, _⟩ => ⟨S1x1024, .f32⟩
  | .local _ .vmem, ⟨6, _⟩ => ⟨S1x2048x1024, .f32⟩
  | .local _ .vmem, ⟨7, _⟩ => ⟨S1x2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x1024_S1024_d0 : S1024x1024.ReducesTo [0] S1024
  h_S_ : 0 < S_.numel
  bcast_S_S1024 : S_.BroadcastsInDim S1024 (![] : Fin 0 → Fin S1024.rank)
  shapeCasts_S1024_S1x1024 : S1024.ShapeCasts S1x1024
  reducesTo_S1024_S_d0 : S1024.ReducesTo [0] S_
  shapeCasts_S_S1x1 : S_.ShapeCasts S1x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  reduces_S2048x1_S1 : S2048x1.Reduces [0] S1
  shapeCasts_S1_S1x1 : S1.ShapeCasts S1x1
  broadcasts_S2048x1_S2048x1024 : S2048x1.Broadcasts S2048x1024
  reduces_S2048x1024_S1024 : S2048x1024.Reduces [0] S1024
  broadcasts_S1x1_S1x1024 : S1x1.Broadcasts S1x1024
  inb_S1024x1024_S1024x1024_0_0 : ∀ a, (![0, 0] : Fin 2 → Nat) a + S1024x1024.size a ≤ S1024x1024.size a
  h_S1024x1024 : 0 < S1024x1024.numel
  shapeCasts_S2048x1024_S1x2048x1024 : S2048x1024.ShapeCasts S1x2048x1024
  dot_S1x1024_S1024x1024_S1x1024_1_1_0_0_n_n_wf : DotDims.WF S1x1024 S1024x1024 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x1024.size a ≤ S4x2048x1024.size a
  hwx0_5 : ∀ i : grid0.Coords, EltTy.bits .f32 = 32 ∨ (Rect.block (s := S4x2048x1024) S1x2048x1024.size (cc0_transform_5 i) (hinb0_5 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048 : Shape := ⟨2, ![4, 2048]⟩
abbrev S4x1x2048 : Shape := ⟨3, ![4, 1, 2048]⟩
abbrev S4x2048x2048 : Shape := ⟨3, ![4, 2048, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048, .f32⟩
  | .hbm, ⟨25, _⟩ => ⟨S4x1x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x1024_S4x2048_d2 : S4x2048x1024.ReducesTo [2] S4x2048
  h_S_ : 0 < S_.numel
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  bcast_S4x1x2048_S4x2048x2048_0_1_2 : S4x1x2048.BroadcastsInDim S4x2048x2048 (![0, 1, 2] : Fin 3 → Fin S4x2048x2048.rank)
  reducesTo_S4x2048x2048_S4x2048_d2 : S4x2048x2048.ReducesTo [2] S4x2048
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  The two sides of the equivalence as plain functions on the extended reals.

  For one batch, write xr j d for the token matrix, wk, wv for the key and value weights (row e, column d)
  and bk, bv for their biases.  The kernel never forms the key or value projections: it averages the key
  weights and bias over the output feature first (wm d, bm), scores token j by exp (cos (xr j . wm + bm)),
  takes the score-weighted mean of the tokens, and projects that ONE row through wv.  The reference forms
  both projections for every token, scores token j by the cosine of the mean of its key row, applies a
  shifted softmax over the tokens (shift M, the row maximum) and averages the value rows.
-/
import Idealize.ShloMosaic.PureOps.Ideal
import Idealize.ShloMosaic.Lib.ValueIdx

noncomputable section

namespace Cert.Attn

open Idealize.ShloMosaic Idealize.ShloMosaic.ValueIdx

/-- The divisor of both means as the programs spell it: the f32 pattern of 1024. -/
abbrev c1024 : EReal := Ideal.ofBits .f32 0x44800000#32

/-! ## The kernel's side -/

/-- The unnormalised weight of token j: exp (cos (xr j . wm + bm)). -/
def tokWeight (xr : Fin 2048 → Fin 1024 → EReal) (wm : Fin 1024 → EReal) (bm : EReal) (j : Fin 2048) : EReal :=
  Ideal.exp (Ideal.cos ((∑ d : Fin 1024, xr j d * wm d) + bm))

/-- The one output row of a batch: the weighted mean of the tokens, projected through wv, plus bv. -/
def rowOut (xr : Fin 2048 → Fin 1024 → EReal) (wm : Fin 1024 → EReal) (bm : EReal)
    (wv : Fin 1024 → Fin 1024 → EReal) (bv : Fin 1024 → EReal) (e : Fin 1024) : EReal :=
  (∑ d : Fin 1024, Ideal.div (∑ j : Fin 2048, tokWeight xr wm bm j * xr j d) (∑ j : Fin 2048, tokWeight xr wm bm j) * wv e d)
    + bv e

/-- The column means of the key weights, as the kernel's host code computes them. -/
def keyMean (wk : Fin 1024 → Fin 1024 → EReal) (d : Fin 1024) : EReal :=
  Ideal.div (∑ e : Fin 1024, wk e d) c1024

/-- The mean of the key bias. -/
def biasMean (bk : Fin 1024 → EReal) : EReal := Ideal.div (∑ e : Fin 1024, bk e) c1024

/-! ## The reference's side -/

/-- A linear projection of token j at output feature e: xr j . w e + bias e. -/
def proj (xr : Fin 2048 → Fin 1024 → EReal) (w : Fin 1024 → Fin 1024 → EReal) (bias : Fin 1024 → EReal)
    (j : Fin 2048) (e : Fin 1024) : EReal :=
  (∑ d : Fin 1024, xr j d * w e d) + bias e

/-- The score of token j: the cosine of the mean of its key row. -/
def score (xr : Fin 2048 → Fin 1024 → EReal) (wk : Fin 1024 → Fin 1024 → EReal) (bk : Fin 1024 → EReal)
    (j : Fin 2048) : EReal :=
  Ideal.cos (Ideal.div (∑ e : Fin 1024, proj xr wk bk j e) c1024)

/-- One output entry of the reference: the softmax (shifted by M) of the scores against the value rows. -/
def attnOut (xr : Fin 2048 → Fin 1024 → EReal) (wk : Fin 1024 → Fin 1024 → EReal) (bk : Fin 1024 → EReal)
    (wv : Fin 1024 → Fin 1024 → EReal) (bv : Fin 1024 → EReal) (M : EReal) (e : Fin 1024) : EReal :=
  ∑ j : Fin 2048, Ideal.div (Ideal.exp (score xr wk bk j - M)) (∑ j' : Fin 2048, Ideal.exp (score xr wk bk j' - M))
    * proj xr wv bv j e

/-! ## Rows and columns of the argument arrays -/

/-- Batch b of the token array as a matrix. -/
abbrev rowsOf (X : (⟨3, ![4, 2048, 1024]⟩ : Shape).Idx → EReal) (b : Fin 4) : Fin 2048 → Fin 1024 → EReal :=
  fun j d => X (ix3 b j d)

/-- A weight array as a matrix. -/
abbrev matOf (W : (⟨2, ![1024, 1024]⟩ : Shape).Idx → EReal) : Fin 1024 → Fin 1024 → EReal := fun e d => W (ix2 e d)

/-- A bias array as a vector. -/
abbrev vecOf (v : (⟨1, ![1024]⟩ : Shape).Idx → EReal) : Fin 1024 → EReal := fun e => v (ix1 e)

/-- The kernel's result array as one function of the five arrays it reads. -/
def kernelArr (X : (⟨3, ![4, 2048, 1024]⟩ : Shape).Idx → EReal) (Wk : (⟨2, ![1024, 1024]⟩ : Shape).Idx → EReal)
    (bk : (⟨1, ![1024]⟩ : Shape).Idx → EReal) (Wv : (⟨2, ![1024, 1024]⟩ : Shape).Idx → EReal)
    (bv : (⟨1, ![1024]⟩ : Shape).Idx → EReal) : (⟨3, ![4, 2048, 1024]⟩ : Shape).Idx → EReal :=
  fun i => rowOut (rowsOf X ⟨(i 0).val, (i 0).isLt⟩) (keyMean (matOf Wk)) (biasMean (vecOf bk)) (matOf Wv) (vecOf bv)
    ⟨(i 2).val, (i 2).isLt⟩

end Cert.Attn

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KernelPayload.lean ====
/-
  The kernel body's stored value, read at one index of its output block.
-/
import proofs.«408728_j1889785610324_3_alg».proof.Proof.Gen.KernelIdeal.Skeleton
import proofs.«408728_j1889785610324_3_alg».proof.Proof.Spec
import proofs.«408728_j1889785610324_3_alg».proof.Proof.LibColumn
import Idealize.ShloMosaic.PureOps.Ideal.Laws
import Idealize.ShloMosaic.Lib.Pipeline.Value
import Idealize.ShloMosaic.Lib.ValueIdx
import Idealize.ShloMosaic.Lib.ValueLayout

noncomputable section

namespace Cert.Attn.Payload

open Idealize.ShloMosaic Idealize.ShloMosaic.ValueIdx Cert.KernelIdeal Cert.Attn

/-! ## Sums along one axis of a block, read at an index -/

/-- The sum over the columns of a 2048 x 1024 block, read at row j. -/
theorem rowSum_apply (src : FVec Ideal S2048x1024 .f32) (h : S2048x1024.Reduces [1] S2048) (hφ : FKind.Formats .f32)
    (hacc : (0x00000000#32 : BitVec 32) = FKind.add.neutral .f32 hφ) (j : Fin 2048) :
    multiReduction (F := Ideal) .add [1] S2048 src 0x00000000#32 h hφ hacc (ix1 j) = ∑ d : Fin 1024, src (ix2 j d) := by
  refine (Ideal.multiReduction_add_single src _ h hφ hacc (ix1 j)).trans ?_
  refine Finset.sum_congr rfl fun k _ => congrArg src ?_
  exact funext fun a => Fin.ext (by match a with | ⟨0, _⟩ => rfl | ⟨1, _⟩ => rfl)

/-- The sum over the rows of a 2048 x 1024 block, read at column d. -/
theorem colSum_apply (src : FVec Ideal S2048x1024 .f32) (h : S2048x1024.Reduces [0] S1024) (hφ : FKind.Formats .f32)
    (hacc : (0x00000000#32 : BitVec 32) = FKind.add.neutral .f32 hφ) (d : Fin 1024) :
    multiReduction (F := Ideal) .add [0] S1024 src 0x00000000#32 h hφ hacc (ix1 d) = ∑ j : Fin 2048, src (ix2 j d) := by
  refine (Ideal.multiReduction_add_single src _ h hφ hacc (ix1 d)).trans ?_
  refine Finset.sum_congr rfl fun k _ => congrArg src ?_
  exact funext fun a => Fin.ext (by match a with | ⟨0, _⟩ => rfl | ⟨1, _⟩ => rfl)

/-- The sum over the rows of a 2048 x 1 column, read at its one entry. -/
theorem colSum1_apply (src : FVec Ideal S2048x1 .f32) (h : S2048x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ j : Fin 2048, src (ix2 j u) := by
  refine (Ideal.multiReduction_add_single src _ h hφ hacc (ix1 u)).trans ?_
  refine Finset.sum_congr rfl fun k _ => congrArg src ?_
  exact funext fun a => Fin.ext (by match a with | ⟨0, _⟩ => rfl | ⟨1, _⟩ => rfl)

/-! ## The contraction of the mean row with the value weights -/

/-- The body's one contraction: a 1 x 1024 row against the 1024 x 1024 weights, along the second axis of both. -/
abbrev rowDot : DotDims S1x1024 S1024x1024 S1x1024 := dot_S1x1024_S1024x1024_S1x1024_1_1_0_0_n_n

/-- The left operand is read in the result's row ... -/
theorem rowDot_lhs_0 (j : S1x1024.Idx) (q : rowDot.contr.Idx) : (rowDot.lhsIdx j q 0).val = (j 0).val := by
  unfold DotDims.lhsIdx
  rw [dif_neg (show ¬(0 : Fin S1x1024.rank) ∈ rowDot.lhsBatch by decide),
    dif_pos (show (0 : Fin S1x1024.rank) ∈ rowDot.lhsNonContracting by decide)]
  rfl
/-- ... at the contraction's coordinate; -/
theorem rowDot_lhs_1 (j : S1x1024.Idx) (q : rowDot.contr.Idx) : (rowDot.lhsIdx j q 1).val = (q ⟨0, by decide⟩).val :=
  rowDot.lhsIdx_val_of_single rfl j q
/-- the right operand is read in the row the result's column names ... -/
theorem rowDot_rhs_0 (j : S1x1024.Idx) (q : rowDot.contr.Idx) : (rowDot.rhsIdx j q 0).val = (j 1).val := by
  unfold DotDims.rhsIdx
  rw [dif_neg (show ¬(0 : Fin S1024x1024.rank) ∈ rowDot.rhsBatch by decide),
    dif_pos (show (0 : Fin S1024x1024.rank) ∈ rowDot.rhsNonContracting by decide)]
  rfl
/-- ... at the contraction's coordinate. -/
theorem rowDot_rhs_1 (j : S1x1024.Idx) (q : rowDot.contr.Idx) : (rowDot.rhsIdx j q 1).val = (q ⟨0, by decide⟩).val :=
  rowDot.rhsIdx_val_of_single rfl j q

/-- Into a zero accumulator the contraction reads, at (0, e), the sum over d of the row at d times the weights at (e, d). -/
theorem matmul_row_apply (m : FVec Ideal S1x1024 .f32) (w : FVec Ideal S1024x1024 .f32) (e : Fin 1024) :
    matmul (F := Ideal) rowDot (some .fp32) m w (constant (F := Ideal) S1x1024 .f32 0x00000000#32) (ix2 (0 : Fin 1) e)
      = ∑ d : Fin 1024, m (ix2 (0 : Fin 1) d) * w (ix2 e d) := by
  refine (Ideal.matmul_constant_zero_apply rowDot (some .fp32) m w (ix2 (0 : Fin 1) e)).trans ?_
  rw [← Equiv.sum_comp (contrEquiv1 rowDot 1024 rfl rfl).symm]
  refine Finset.sum_congr rfl fun k _ => ?_
  have hk := contrEquiv1_symm_val rowDot 1024 rfl rfl k
  have el : rowDot.lhsIdx (ix2 (0 : Fin 1) e) ((contrEquiv1 rowDot 1024 rfl rfl).symm k) = ix2 (0 : Fin 1) k :=
    funext fun a => Fin.ext (by
      match a with
      | ⟨0, _⟩ => exact rowDot_lhs_0 _ _
      | ⟨1, _⟩ => exact (rowDot_lhs_1 _ _).trans hk)
  have er : rowDot.rhsIdx (ix2 (0 : Fin 1) e) ((contrEquiv1 rowDot 1024 rfl rfl).symm k) = ix2 e k :=
    funext fun a => Fin.ext (by
      match a with
      | ⟨0, _⟩ => exact rowDot_rhs_0 _ _
      | ⟨1, _⟩ => exact (rowDot_rhs_1 _ _).trans hk)
  rw [el, er]

/-! ## The weight column -/

/-- The body's weight column at (j, u): the exponential of the cosine of token j's score, the token row against the
    mean key weights plus the mean key bias. -/
theorem weight_apply (x0 : FVec Ideal S1x2048x1024 .f32) (x1 : FVec Ideal S1x1024 .f32) (x2 : FVec Ideal S1x1 .f32)
    (j : Fin 2048) (u : Fin 1) :
    exp (F := Ideal) (cos (F := Ideal) (addf
        (shapeCast S2048x1 (multiReduction (F := Ideal) .add [1] S2048
          (mulf (shapeCast S2048x1024 x0 Gen.shapeCasts_S1x2048x1024_S2048x1024)
            (broadcastTo S2048x1024 (shapeCast S1x1024 x1 Gen.shapeCasts_S1x1024_S1x1024) Gen.broadcasts_S1x1024_S2048x1024))
          0x00000000#32 Gen.reduces_S2048x1024_S2048 (.inl rfl) rfl) Gen.shapeCasts_S2048_S2048x1)
        (broadcastTo S2048x1 (shapeCast S1x1 x2 Gen.shapeCasts_S1x1_S1x1) Gen.broadcasts_S1x1_S2048x1))) (ix2 j u)
      = tokWeight (fun j d => x0 (ix3 (0 : Fin 1) j d)) (fun d => x1 (ix2 (0 : Fin 1) d)) (x2 (ix2 (0 : Fin 1) (0 : Fin 1))) j := by
  unfold tokWeight
  refine congrArg (fun t => Ideal.exp (Ideal.cos t)) ?_
  refine congrArg₂ (· + ·) ?_ ?_
  · refine (Cert.LibColumn.shapeCast_a_a1_apply _ _ j u).trans ?_
    refine (rowSum_apply _ _ _ _ j).trans ?_
    refine Finset.sum_congr rfl fun d _ => congrArg₂ (· * ·) (shapeCast_1ab_ab_apply x0 _ j d) ?_
    refine (broadcastTo_1b_ab_apply _ _ j d).trans ?_
    exact congrFun (shapeCast_self x1 _) _
  · refine (broadcastTo_1b_ab_apply _ _ j u).trans ?_
    refine (congrFun (shapeCast_self x2 _) _).trans ?_
    exact congrArg (fun t : Fin 1 => x2 (ix2 (0 : Fin 1) t)) (Subsingleton.elim u 0)

/-- At entry (u, i, e) of the output block the body stores the batch's one output row at e, whatever the row i:
    the weighted mean of the token block's rows, projected through the value weights, plus the bias row. -/
theorem pay_apply (x0 : FVec Ideal S1x2048x1024 .f32) (x1 : FVec Ideal S1x1024 .f32) (x2 : FVec Ideal S1x1 .f32)
    (x3 : FVec Ideal S1024x1024 .f32) (x4 : FVec Ideal S1x1024 .f32) (u : Fin 1) (i : Fin 2048) (e : Fin 1024) :
    Cert.KernelIdeal.Gen.k0_pay1 (F := Ideal) x0 x1 x2 x3 x4 (ix3 u i e)
      = rowOut (fun j d => x0 (ix3 (0 : Fin 1) j d)) (fun d => x1 (ix2 (0 : Fin 1) d)) (x2 (ix2 (0 : Fin 1) (0 : Fin 1)))
          (fun e' d => x3 (ix2 e' d)) (fun e' => x4 (ix2 (0 : Fin 1) e')) e := by
  unfold Gen.k0_pay1 rowOut
  refine (shapeCast_ab_1ab_apply _ _ u i e).trans ?_
  refine (broadcastTo_1b_ab_apply _ _ i e).trans ?_
  refine (congrFun (shapeCast_self _ _) _).trans ?_
  refine congrArg₂ (· + ·) ?_ (congrFun (shapeCast_self x4 _) _)
  refine (matmul_row_apply _ x3 e).trans ?_
  refine Finset.sum_congr rfl fun d _ => congrArg (· * x3 (ix2 e d)) ?_
  refine congrArg₂ Ideal.div ?_ ?_
  · refine (shapeCast_a_1a_apply _ _ (0 : Fin 1) d).trans ?_
    refine (colSum_apply _ _ _ _ d).trans ?_
    refine Finset.sum_congr rfl fun j _ => congrArg₂ (· * ·) ?_ (shapeCast_1ab_ab_apply x0 _ j d)
    refine (Cert.LibColumn.broadcastTo_a1_ab_apply _ _ j d).trans ?_
    exact weight_apply x0 x1 x2 j 0
  · refine (Cert.LibColumn.broadcastTo_a1_ab_apply _ _ (0 : Fin 1) d).trans ?_
    refine (shapeCast_a_1a_apply _ _ (0 : Fin 1) (0 : Fin 1)).trans ?_
    refine (colSum1_apply _ _ _ _ (0 : Fin 1)).trans ?_
    exact Finset.sum_congr rfl fun j _ => weight_apply x0 x1 x2 j 0

end Cert.Attn.Payload

end
-- ==== Proof.KernelArray.lean ====
/-
  The kernel's result array as one function of its arguments.

  The region stages five arrays: the tokens and the value weights as launched, and three arrays the host code
  wrote just before it: the column means of the key weights as a 1 x 1024 row, the mean of the key bias as a
  1 x 1 entry, and the value bias as a 1 x 1024 row.  Grid point t reads batch t of the tokens and the other four
  arrays whole, and writes batch t of the result: every row of it is the batch's one output row.  The four
  batches tile the result array, so it ends as kernelArr of the arguments.
-/
import proofs.«408728_j1889785610324_3_alg».proof.Proof.Gen.KernelIdeal.Value
import proofs.«408728_j1889785610324_3_alg».proof.Proof.Spec
import proofs.«408728_j1889785610324_3_alg».proof.Proof.KernelPayload
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Attn.KArr

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Value Cert.Attn

variable (m : (ℓ : Loc nD τ sig) → Buf (Elt Ideal) ℓ) (ρ : Dev nD → PrngReg)

/-- The indices of a length-n vector are its n coordinates. -/
def idxEquiv1 {n : Nat} : (⟨1, ![n]⟩ : Shape).Idx ≃ Fin n where
  toFun j := j 0
  invFun a := ix1 a
  left_inv j := (eq_ix1 j).symm
  right_inv _ := rfl

/-- A sum over a vector's indices is the sum over its coordinates. -/
theorem sum_idx1 {M : Type} [AddCommMonoid M] {n : Nat} (f : (⟨1, ![n]⟩ : Shape).Idx → M) :
    ∑ j, f j = ∑ a : Fin n, f (ix1 a) :=
  (Equiv.sum_comp idxEquiv1.symm f).symm

/-! ## The three arrays the host code writes before the region -/

/-- The mean-key-weights row: the column sums of the key weights over 1024, as a 1 x 1024 row. -/
theorem v3_term (c : Dev nD) : (V m c main_v3 : S1x1024.Idx → EReal)
    = shapeCast S1x1024 (Host.divf (F := Ideal)
        (Host.reduceAdd (F := Ideal) (m ((c.tc : Thread nD τ).loc main_arg3)) (constant (F := Ideal) S_ .f32 0x00000000#32) reducesTo_S1024x1024_S1024_d0 h_S_)
        (broadcastInDim S1024 ![] bcast_S_S1024 (constant (F := Ideal) S_ .f32 0x44800000#32))) shapeCasts_S1024_S1x1024 := by
  dsimp only [Gen.V, Gen.hostOps0]
  after_results
  rfl

/-- The mean key bias: the sum of the key bias over 1024, as a 1 x 1 entry. -/
theorem v6_term (c : Dev nD) : (V m c main_v6 : S1x1.Idx → EReal)
    = shapeCast S1x1 (Host.divf (F := Ideal)
        (Host.reduceAdd (F := Ideal) (m ((c.tc : Thread nD τ).loc main_arg4)) (constant (F := Ideal) S_ .f32 0x00000000#32) reducesTo_S1024_S_d0 h_S_)
        (constant (F := Ideal) S_ .f32 0x44800000#32)) shapeCasts_S_S1x1 := by
  dsimp only [Gen.V, Gen.hostOps0]
  after_results
  rfl

/-- The value bias as a 1 x 1024 row. -/
theorem v7_term (c : Dev nD) : (V m c main_v7 : S1x1024.Idx → EReal)
    = shapeCast S1x1024 (m ((c.tc : Thread nD τ).loc main_arg6)) shapeCasts_S1024_S1x1024 := by
  dsimp only [Gen.V, Gen.hostOps0]
  after_results
  rfl

/-- The staged row of mean key weights at column d. -/
theorem v3_apply (c : Dev nD) (d : Fin 1024) :
    (V m c main_v3 : S1x1024.Idx → EReal) (ix2 (0 : Fin 1) d) = keyMean (matOf (m ((c.tc : Thread nD τ).loc main_arg3))) d := by
  rw [v3_term]
  refine (shapeCast_a_1a_apply _ shapeCasts_S1024_S1x1024 (0 : Fin 1) d).trans ?_
  show Ideal.div (Host.reduceAdd (F := Ideal) (m ((c.tc : Thread nD τ).loc main_arg3)) (constant (F := Ideal) S_ .f32 0x00000000#32) reducesTo_S1024x1024_S1024_d0 h_S_ (ix1 d))
      (broadcastInDim S1024 ![] bcast_S_S1024 (constant (F := Ideal) S_ .f32 0x44800000#32) (ix1 d)) = _
  rw [broadcastInDim_apply _ bcast_S_S1024 _ (ix1 d) ix0 (fun a => a.elim0)]
  simp only [Host.reduceAdd, Ideal.hostReduceAdd_def]
  rw [Ideal.hostReduceAdd_single reducesTo_S1024x1024_S1024_d0 (by decide)]
  unfold keyMean
  show Ideal.div (Ideal.ofBits .f32 0x00000000#32 + _) c1024 = _
  rw [Ideal.ofBits_zero_f32, zero_add]
  refine congrArg (Ideal.div · c1024) (Finset.sum_congr rfl fun k _ => ?_)
  exact congrArg (m ((c.tc : Thread nD τ).loc main_arg3)) (funext fun a => Fin.ext (by match a with | ⟨0, _⟩ => rfl | ⟨1, _⟩ => rfl))

/-- The staged mean key bias. -/
theorem v6_apply (c : Dev nD) :
    (V m c main_v6 : S1x1.Idx → EReal) (ix2 (0 : Fin 1) (0 : Fin 1)) = biasMean (vecOf (m ((c.tc : Thread nD τ).loc main_arg4))) := by
  rw [v6_term]
  refine (shapeCast_apply _ shapeCasts_S_S1x1 (ix2 (0 : Fin 1) (0 : Fin 1)) ix0 (by rfl)).trans ?_
  show Ideal.div (Host.reduceAdd (F := Ideal) (m ((c.tc : Thread nD τ).loc main_arg4)) (constant (F := Ideal) S_ .f32 0x00000000#32) reducesTo_S1024_S_d0 h_S_ ix0)
      (constant (F := Ideal) S_ .f32 0x44800000#32 ix0) = _
  simp only [Host.reduceAdd, Ideal.hostReduceAdd_def]
  rw [Ideal.hostReduceAdd_total reducesTo_S1024_S_d0 (fun b => b.elim0)]
  unfold biasMean
  show Ideal.div (Ideal.ofBits .f32 0x00000000#32 + _) c1024 = _
  rw [Ideal.ofBits_zero_f32, zero_add]
  exact congrArg (Ideal.div · c1024) (sum_idx1 _)

/-- The staged value-bias row at column e. -/
theorem v7_apply (c : Dev nD) (e : Fin 1024) :
    (V m c main_v7 : S1x1024.Idx → EReal) (ix2 (0 : Fin 1) e) = vecOf (m ((c.tc : Thread nD τ).loc main_arg6)) e := by
  rw [v7_term]
  exact shapeCast_a_1a_apply _ shapeCasts_S1024_S1x1024 (0 : Fin 1) e

/-! ## What a grid point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The kernel's result array, of the arguments as launched. -/
abbrev result (c : Dev nD) : S4x2048x1024.Idx → EReal :=
  kernelArr (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg6))

/-- The printed index maps, decided over the four grid points: the token and result windows sit at batch t, the
    other four windows at the origin. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- rowOut respects equality of each of its arguments. -/
theorem rowOut_congr {xr xr' : Fin 2048 → Fin 1024 → EReal} {wm wm' : Fin 1024 → EReal} {bm bm' : EReal}
    {wv wv' : Fin 1024 → Fin 1024 → EReal} {bv bv' : Fin 1024 → EReal} {e e' : Fin 1024}
    (h1 : xr = xr') (h2 : wm = wm') (h3 : bm = bm') (h4 : wv = wv') (h5 : bv = bv') (h6 : e = e') :
    rowOut xr wm bm wv bv e = rowOut xr' wm' bm' wv' bv' e' := by
  subst h1 h2 h3 h4 h5 h6; rfl

/-- What point t writes back is block t of the result array. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz3]
  simp only [View.ld_unit_zero (S := S1x2048x1024) hz3, View.ld_unit_zero (S := S1x1024) hz2, View.ld_unit_zero (S := S1x1) hz2,
    View.ld_unit_zero (S := S1024x1024) hz2]
  funext y
  obtain ⟨u, i, e, rfl⟩ : ∃ (u : Fin 1) (i : Fin 2048) (e : Fin 1024), y = ix3 u i e := ⟨y 0, y 1, y 2, eq_ix3 y⟩
  obtain ⟨f00, f01, f02, f50, f51, f52, f10, f11, f20, f21, f30, f31, f40, f41⟩ := idx_facts t
  have hu : u.val = 0 := by omega
  show k0_pay1 (F := Ideal) (iblk m c 0 t) (iblk m c 1 t) (iblk m c 2 t) (iblk m c 3 t) (iblk m c 4 t) (ix3 u i e)
      = result m c (((cfg0.win 5).blk t).view.emb (ix3 u i e))
  refine (Payload.pay_apply (iblk m c 0 t) (iblk m c 1 t) (iblk m c 2 t) (iblk m c 3 t) (iblk m c 4 t) u i e).trans ?_
  unfold result kernelArr
  refine rowOut_congr ?_ ?_ ?_ ?_ ?_ ?_
  · -- the token block at point t is batch t of the token array
    funext j d
    show V m c main_arg0 (((cfg0.win 0).blk t).view.emb (ix3 (0 : Fin 1) j d)) = m ((c.tc : Thread nD τ).loc main_arg0) (ix3 _ j d)
    rw [V_main_arg0]
    refine congrArg (m ((c.tc : Thread nD τ).loc main_arg0)) (funext fun a => Fin.ext ?_)
    match a with
    | ⟨0, _⟩ => show win0_0.index t (0 : Fin 3) * 1 + 1 * 0 = win0_5.index t (0 : Fin 3) * 1 + 1 * u.val; omega
    | ⟨1, _⟩ => show win0_0.index t (1 : Fin 3) * 2048 + 1 * j.val = j.val; omega
    | ⟨2, _⟩ => show win0_0.index t (2 : Fin 3) * 1024 + 1 * d.val = d.val; omega
  · -- the mean key weights: the whole 1 x 1024 row, at every point
    funext d
    have e1 : ((cfg0.win 1).blk t).view.emb (ix2 (0 : Fin 1) d) = ix2 (0 : Fin 1) d := funext fun a => Fin.ext (by
      match a with
      | ⟨0, _⟩ => show win0_1.index t (0 : Fin 2) * 1 + 1 * 0 = 0; omega
      | ⟨1, _⟩ => show win0_1.index t (1 : Fin 2) * 1024 + 1 * d.val = d.val; omega)
    show V m c main_v3 (((cfg0.win 1).blk t).view.emb (ix2 (0 : Fin 1) d)) = _
    exact (congrArg (V m c main_v3) e1).trans (v3_apply m c d)
  · -- the mean key bias: the one entry
    have e2 : ((cfg0.win 2).blk t).view.emb (ix2 (0 : Fin 1) (0 : Fin 1)) = ix2 (0 : Fin 1) (0 : Fin 1) := funext fun a => Fin.ext (by
      match a with
      | ⟨0, _⟩ => show win0_2.index t (0 : Fin 2) * 1 + 1 * 0 = 0; omega
      | ⟨1, _⟩ => show win0_2.index t (1 : Fin 2) * 1 + 1 * 0 = 0; omega)
    show V m c main_v6 (((cfg0.win 2).blk t).view.emb (ix2 (0 : Fin 1) (0 : Fin 1))) = _
    exact (congrArg (V m c main_v6) e2).trans (v6_apply m c)
  · -- the value weights: the whole array, at every point
    funext e' d
    show V m c main_arg5 (((cfg0.win 3).blk t).view.emb (ix2 e' d)) = m ((c.tc : Thread nD τ).loc main_arg5) (ix2 e' d)
    rw [V_main_arg5]
    refine congrArg (m ((c.tc : Thread nD τ).loc main_arg5)) (funext fun a => Fin.ext ?_)
    match a with
    | ⟨0, _⟩ => show win0_3.index t (0 : Fin 2) * 1024 + 1 * e'.val = e'.val; omega
    | ⟨1, _⟩ => show win0_3.index t (1 : Fin 2) * 1024 + 1 * d.val = d.val; omega
  · -- the value bias: the whole 1 x 1024 row
    funext e'
    have e4 : ((cfg0.win 4).blk t).view.emb (ix2 (0 : Fin 1) e') = ix2 (0 : Fin 1) e' := funext fun a => Fin.ext (by
      match a with
      | ⟨0, _⟩ => show win0_4.index t (0 : Fin 2) * 1 + 1 * 0 = 0; omega
      | ⟨1, _⟩ => show win0_4.index t (1 : Fin 2) * 1024 + 1 * e'.val = e'.val; omega)
    show V m c main_v7 (((cfg0.win 4).blk t).view.emb (ix2 (0 : Fin 1) e')) = _
    exact (congrArg (V m c main_v7) e4).trans (v7_apply m c e')
  · -- the result's feature coordinate is the block's
    exact Fin.ext (by show e.val = win0_5.index t (2 : Fin 3) * 1024 + 1 * e.val; omega)

/-! ## The whole array -/

/-- Every index of the result array lies in the block of the point its batch coordinate names. -/
theorem cover (i : S4x2048x1024.Idx) :
    ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  have hN : cfg0.N = 4 := N_0
  obtain ⟨t, ht⟩ : ∃ t : Fin cfg0.N, t.val = (i 0).val := ⟨⟨(i 0).val, by omega⟩, rfl⟩
  obtain ⟨-, -, -, f50, f51, f52, -⟩ := idx_facts t
  refine ⟨t, flush0_5 t, ?_⟩
  show i ∈ ((View.whole main_v8).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 1024 ≤ (i 2).val ∧ (i 2).val < win0_5.index t (2 : Fin 3) * 1024 + 1024; omega

/-- After the run the result array is kernelArr of the arguments. -/
theorem final (c : Dev nD) : (dats m 0 c).arrAt 5 cfg0.N = result m c :=
  (dats m 0 c).arrAt_eq_of_cover 5 (result m c) (fun t _ => flushed_eq m c t) cover

/-- The kernel's run, with its result array named. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Attn.KArr

end
-- ==== Proof.RefRead.lean ====
/-
  The reference's result read at one index, one operation at a time.
-/
import proofs.«408728_j1889785610324_3_alg».proof.Proof.Gen.ReferenceIdeal.Read
import proofs.«408728_j1889785610324_3_alg».proof.Proof.Spec
import Idealize.ShloMosaic.PureOps.Ideal.Laws
import Idealize.ShloMosaic.Lib.Pipeline.Value
import Idealize.ShloMosaic.Lib.ValueIdx

noncomputable section

namespace Cert.Attn.Ref

open Idealize.ShloMosaic Idealize.ShloMosaic.ValueIdx Cert.ReferenceIdeal Cert.ReferenceIdeal.Read Cert.Attn

/-! ## A maximum of finitely many reals is a real -/

/-- The larger of two reals, taken in the extended reals, is one of them. -/
theorem max_coe_coe (a b : ℝ) : ∃ r : ℝ, max (a : EReal) (b : EReal) = (r : EReal) := by
  rcases le_total a b with h | h
  · exact ⟨b, max_eq_right (EReal.coe_le_coe_iff.2 h)⟩
  · exact ⟨a, max_eq_left (EReal.coe_le_coe_iff.2 h)⟩

/-- Folding `max` from minus infinity over a nonempty finite set of reals gives a real: over one element the fold
    is that element, and each further element replaces a real by the larger of two reals. -/
theorem fold_max_real_of_nonempty {ι : Type*} (f : ι → EReal) (hf : ∀ k, ∃ r : ℝ, f k = (r : EReal))
    (s : Finset ι) (hs : s.Nonempty) : ∃ r : ℝ, s.fold max ⊥ f = (r : EReal) := by
  induction hs using Finset.Nonempty.cons_induction with
  | singleton a =>
    obtain ⟨r, hr⟩ := hf a
    exact ⟨r, by rw [Finset.fold_singleton, hr]; exact max_eq_left bot_le⟩
  | cons a s ha hs ih =>
    obtain ⟨r, hr⟩ := hf a
    obtain ⟨q, hq⟩ := ih
    rw [Finset.fold_cons, hr, hq]
    exact max_coe_coe r q

/-- The same over a whole nonempty finite type. -/
theorem fold_max_real {ι : Type*} [Fintype ι] [Nonempty ι] (f : ι → EReal) (hf : ∀ k, ∃ r : ℝ, f k = (r : EReal)) :
    ∃ r : ℝ, (Finset.univ : Finset ι).fold max ⊥ f = (r : EReal) :=
  fold_max_real_of_nonempty f hf _ Finset.univ_nonempty

/-- The f32 pattern of minus infinity denotes the bottom of the extended reals. -/
theorem ofBits_neg_inf_f32 : Ideal.ofBits .f32 0xFF800000#32 = ⊥ := by
  simp [Ideal.ofBits, Ideal.ieee]

/-! ## The composed index functions at indices built from coordinates -/

section Idx

variable (b : Fin 4) (i j : Fin 2048) (e d : Fin 1024)

theorem lidx4_eq : lidx_main_v4 (ix3 b j e) d = ix3 b j d :=
  funext fun a => Fin.ext (by match a with | ⟨0, _⟩ => rfl | ⟨1, _⟩ => rfl | ⟨2, _⟩ => rfl)
theorem ridx4_eq : ridx_main_v4 (ix3 b j e) d = ix2 e d :=
  funext fun a => Fin.ext (by match a with | ⟨0, _⟩ => rfl | ⟨1, _⟩ => rfl)
theorem idx6_eq : idx_main_v5 (idx_main_v6 (ix3 b j e)) = ix1 e :=
  funext fun a => Fin.ext (by match a with | ⟨0, _⟩ => rfl)
theorem lidx8_eq : lidx_main_v8 (ix3 b j e) d = ix3 b j d :=
  funext fun a => Fin.ext (by match a with | ⟨0, _⟩ => rfl | ⟨1, _⟩ => rfl | ⟨2, _⟩ => rfl)
theorem ridx8_eq : ridx_main_v8 (ix3 b j e) d = ix2 e d :=
  funext fun a => Fin.ext (by match a with | ⟨0, _⟩ => rfl | ⟨1, _⟩ => rfl)
theorem idx10_eq : idx_main_v9 (idx_main_v10 (ix3 b j e)) = ix1 e :=
  funext fun a => Fin.ext (by match a with | ⟨0, _⟩ => rfl)
theorem idx12_eq : idx_main_v12 (ix2 b j) d = ix3 b j d :=
  funext fun a => Fin.ext (by match a with | ⟨0, _⟩ => rfl | ⟨1, _⟩ => rfl | ⟨2, _⟩ => rfl)
theorem idx17_eq : idx_main_v16 (idx_main_v17 (ix3 b i j)) = ix2 b j :=
  funext fun a => Fin.ext (by match a with | ⟨0, _⟩ => rfl | ⟨1, _⟩ => rfl)
theorem idx22_eq : idx_main_v21 (idx_main_v22 (ix3 b i j)) = ix2 b i :=
  funext fun a => Fin.ext (by match a with | ⟨0, _⟩ => rfl | ⟨1, _⟩ => rfl)
theorem idx25_eq : idx_main_v25 (ix2 b i) j = ix3 b i j :=
  funext fun a => Fin.ext (by match a with | ⟨0, _⟩ => rfl | ⟨1, _⟩ => rfl | ⟨2, _⟩ => rfl)
theorem idx27_eq : idx_main_v26 (idx_main_v27 (ix3 b i j)) = ix2 b i :=
  funext fun a => Fin.ext (by match a with | ⟨0, _⟩ => rfl | ⟨1, _⟩ => rfl)
theorem lidx29_eq : lidx_main_v29 (ix3 b i e) j = ix3 b i j :=
  funext fun a => Fin.ext (by match a with | ⟨0, _⟩ => rfl | ⟨1, _⟩ => rfl | ⟨2, _⟩ => rfl)
theorem ridx29_eq : ridx_main_v29 (ix3 b i e) j = ix3 b j e :=
  funext fun a => Fin.ext (by match a with | ⟨0, _⟩ => rfl | ⟨1, _⟩ => rfl | ⟨2, _⟩ => rfl)

end Idx

/-! ## The stages, each at an index built from coordinates -/

section Stages

variable (X : FVec Ideal S4x2048x1024 .f32) (Wk : FVec Ideal S1024x1024 .f32) (bk : FVec Ideal S1024 .f32)
  (Wv : FVec Ideal S1024x1024 .f32) (bv : FVec Ideal S1024 .f32)

/-- The key projection at (b, j, e). -/
theorem key_at (b : Fin 4) (j : Fin 2048) (e : Fin 1024) :
    val_main_v7 (F := Ideal) X Wk bk (ix3 b j e) = proj (rowsOf X b) (matOf Wk) (vecOf bk) j e := by
  rw [val_main_v7_apply, val_main_v4_apply, val_main_v6_apply, val_main_v5_apply, idx6_eq]
  simp only [lidx4_eq, ridx4_eq]
  rfl

/-- The value projection at (b, j, e). -/
theorem value_at (b : Fin 4) (j : Fin 2048) (e : Fin 1024) :
    val_main_v11 (F := Ideal) X Wv bv (ix3 b j e) = proj (rowsOf X b) (matOf Wv) (vecOf bv) j e := by
  rw [val_main_v11_apply, val_main_v8_apply, val_main_v10_apply, val_main_v9_apply, idx10_eq]
  simp only [lidx8_eq, ridx8_eq]
  rfl

/-- The score of token j of batch b. -/
theorem score_at (b : Fin 4) (j : Fin 2048) :
    val_main_v15 (F := Ideal) X Wk bk (ix2 b j) = score (rowsOf X b) (matOf Wk) (vecOf bk) j := by
  rw [val_main_v15_apply, val_main_v14_apply, val_main_v12_apply, val_main_v13_apply, val_main_cst_apply,
    val_main_cst_0_apply]
  simp only [idx12_eq, key_at, Ideal.hostUnary_cos_def, Ideal.hostDivf_def, Ideal.ofBits_def, Ideal.ofBits_zero_f32,
    zero_add]
  rfl

/-- The broadcast scores at (b, i, j) do not depend on i. -/
theorem scores_at (b : Fin 4) (i j : Fin 2048) :
    val_main_v17 (F := Ideal) X Wk bk (ix3 b i j) = score (rowsOf X b) (matOf Wk) (vecOf bk) j := by
  rw [val_main_v17_apply, val_main_v16_apply, idx17_eq, score_at]

/-- The broadcast shift at (b, i, j) is the row maximum of row (b, i). -/
theorem shift_at (b : Fin 4) (i j : Fin 2048) :
    val_main_v22 (F := Ideal) X Wk bk (ix3 b i j) = val_main_v20 (F := Ideal) X Wk bk (ix2 b i) := by
  rw [val_main_v22_apply, val_main_v21_apply, idx22_eq]

/-- The unnormalised softmax weight at (b, i, j). -/
theorem num_at (b : Fin 4) (i j : Fin 2048) :
    val_main_v24 (F := Ideal) X Wk bk (ix3 b i j)
      = Ideal.exp (score (rowsOf X b) (matOf Wk) (vecOf bk) j - val_main_v20 (F := Ideal) X Wk bk (ix2 b i)) := by
  rw [val_main_v24_apply, val_main_v23_apply, scores_at, shift_at]
  rfl

/-- The softmax normaliser of row (b, i). -/
theorem den_at (b : Fin 4) (i : Fin 2048) :
    val_main_v25 (F := Ideal) X Wk bk (ix2 b i)
      = ∑ j' : Fin 2048, Ideal.exp (score (rowsOf X b) (matOf Wk) (vecOf bk) j' - val_main_v20 (F := Ideal) X Wk bk (ix2 b i)) := by
  rw [val_main_v25_apply, val_main_cst_3_apply]
  simp only [idx25_eq, num_at, Ideal.ofBits_def, Ideal.ofBits_zero_f32, zero_add]

/-- The softmax weight at (b, i, j). -/
theorem weight_at (b : Fin 4) (i j : Fin 2048) :
    val_main_v28 (F := Ideal) X Wk bk (ix3 b i j)
      = Ideal.div (Ideal.exp (score (rowsOf X b) (matOf Wk) (vecOf bk) j - val_main_v20 (F := Ideal) X Wk bk (ix2 b i)))
          (∑ j' : Fin 2048, Ideal.exp (score (rowsOf X b) (matOf Wk) (vecOf bk) j' - val_main_v20 (F := Ideal) X Wk bk (ix2 b i))) := by
  rw [val_main_v28_apply, val_main_v27_apply, val_main_v26_apply, idx27_eq, num_at, den_at]
  rfl

end Stages

/-- Entry (b, i, e) of the reference's result: the softmax of batch b's scores, shifted by the row maximum the
    program computes for row i, against the value rows at feature e. -/
theorem ref_apply (X : FVec Ideal S4x2048x1024 .f32) (Wk : FVec Ideal S1024x1024 .f32) (bk : FVec Ideal S1024 .f32)
    (Wv : FVec Ideal S1024x1024 .f32) (bv : FVec Ideal S1024 .f32) (b : Fin 4) (i : Fin 2048) (e : Fin 1024) :
    val_main_v29 (F := Ideal) X Wk bk Wv bv (ix3 b i e)
      = attnOut (rowsOf X b) (matOf Wk) (vecOf bk) (matOf Wv) (vecOf bv) (val_main_v20 (F := Ideal) X Wk bk (ix2 b i)) e := by
  rw [val_main_v29_apply]
  unfold attnOut
  refine Finset.sum_congr rfl fun j _ => ?_
  rw [lidx29_eq, ridx29_eq, weight_at, value_at]

/-- The source index over row (b, i) with coordinate k on the reduced axis. -/
theorem lift_eq (hred : S4x2048x2048.Reduces [2] S4x2048) (b : Fin 4) (i k : Fin 2048) :
    hred.lift (ix2 b i) k = ix3 b i k :=
  funext fun a => Fin.ext (by match a with | ⟨0, _⟩ => rfl | ⟨1, _⟩ => rfl | ⟨2, _⟩ => rfl)

/-- The row maximum is a real number as soon as every score of the batch is: it is the larger of minus infinity
    and a maximum over the 2048 scores. -/
theorem rowmax_real (X : FVec Ideal S4x2048x1024 .f32) (Wk : FVec Ideal S1024x1024 .f32) (bk : FVec Ideal S1024 .f32)
    (b : Fin 4) (i : Fin 2048) (h : ∀ j : Fin 2048, ∃ r : ℝ, score (rowsOf X b) (matOf Wk) (vecOf bk) j = (r : EReal)) :
    ∃ r : ℝ, val_main_v20 (F := Ideal) X Wk bk (ix2 b i) = (r : EReal) := by
  have hred : S4x2048x2048.Reduces [2] S4x2048 := by decide
  -- the reduce at row (b, i) is the fold of max from minus infinity over the batch's scores
  have hfold : val_main_v18 (F := Ideal) X Wk bk (ix2 b i)
      = (Finset.univ : Finset (Fin 2048)).fold max ⊥ (fun k => score (rowsOf X b) (matOf Wk) (vecOf bk) k) := by
    unfold val_main_v18
    refine (Host.reduce_eq_fold_single FloatOps.maximumf _ _ _ hred _ (ix2 b i)).trans ?_
    show (Finset.univ : Finset (Fin 2048)).fold max (Ideal.ofBits .f32 0xFF800000#32)
        (fun k : Fin 2048 => val_main_v17 (F := Ideal) X Wk bk (hred.lift (ix2 b i) k)) = _
    rw [ofBits_neg_inf_f32]
    refine congrArg (fun f => (Finset.univ : Finset (Fin 2048)).fold max ⊥ f) (funext fun k : Fin 2048 => ?_)
    exact (congrArg (val_main_v17 (F := Ideal) X Wk bk) (lift_eq hred b i k)).trans (scores_at X Wk bk b i k)
  haveI : Nonempty (Fin 2048) := ⟨0⟩
  obtain ⟨r, hr⟩ := fold_max_real (fun k => score (rowsOf X b) (matOf Wk) (vecOf bk) k) h
  refine ⟨r, ?_⟩
  rw [val_main_v20_apply, val_main_v19_apply, val_main_cst_2_apply, hfold, hr]
  show max (Ideal.ofBits .f32 0xFF800000#32) (r : EReal) = r
  rw [ofBits_neg_inf_f32]
  exact max_eq_right bot_le

end Cert.Attn.Ref

end
-- ==== Proof.RealCollapse.lean ====
/-
  The two identities over the reals that make the kernel's short cut exact, over arbitrary finite index types:
  J the tokens, D the input features, E the output features.

  * mean_proj: the mean over output features of a token's projection is the token against the mean weights,
    plus the mean bias (linearity of the sum).
  * softmax_collapse: softmax weights, whatever shift M they are computed with, are the unshifted
    exponentials over their sum; they add up to one, so averaging the value rows  x j . wv + b  with them
    is projecting the weighted mean token once and adding b once.
-/
import Mathlib.Analysis.Complex.Exponential
import Mathlib.Algebra.BigOperators.Field
import Mathlib.Algebra.Order.BigOperators.Group.Finset
import Mathlib.Tactic.Ring
import Mathlib.Tactic.FieldSimp

namespace Cert.Attn.RealAlg

open Finset

variable {J D E : Type} [Fintype J] [Fintype D] [Fintype E]

/-- The mean of a projected row is the row against the mean weights plus the mean bias. -/
theorem mean_proj (x : D → ℝ) (w : E → D → ℝ) (b : E → ℝ) (n : ℝ) :
    (∑ e, ((∑ d, x d * w e d) + b e)) / n = (∑ d, x d * ((∑ e, w e d) / n)) + (∑ e, b e) / n := by
  rw [sum_add_distrib, add_div, sum_comm, sum_div]
  congr 1
  refine sum_congr rfl fun d _ => ?_
  rw [← mul_sum, mul_div_assoc]

/-- The sum of exponentials over a non-empty type is positive. -/
theorem sum_exp_pos [Nonempty J] (s : J → ℝ) : 0 < ∑ j, Real.exp (s j) :=
  sum_pos (fun j _ => Real.exp_pos (s j)) univ_nonempty

/-- A shifted softmax weight is the unshifted exponential over the unshifted sum. -/
theorem softmax_shift [Nonempty J] (s : J → ℝ) (M : ℝ) (j : J) :
    Real.exp (s j - M) / ∑ j', Real.exp (s j' - M) = Real.exp (s j) / ∑ j', Real.exp (s j') := by
  have hZ : (∑ j', Real.exp (s j')) ≠ 0 := (sum_exp_pos s).ne'
  have hM : Real.exp M ≠ 0 := (Real.exp_pos M).ne'
  simp only [Real.exp_sub]
  rw [← sum_div]
  field_simp

/-- Averaging the value rows with softmax weights is projecting the weighted mean token once. -/
theorem softmax_collapse [Nonempty J] (x : J → D → ℝ) (s : J → ℝ) (M : ℝ) (wv : D → ℝ) (b : ℝ) :
    ∑ j, Real.exp (s j - M) / (∑ j', Real.exp (s j' - M)) * ((∑ d, x j d * wv d) + b)
      = (∑ d, (∑ j, Real.exp (s j) * x j d) / (∑ j, Real.exp (s j)) * wv d) + b := by
  have hZ : (∑ j', Real.exp (s j')) ≠ 0 := (sum_exp_pos s).ne'
  simp only [softmax_shift s M, mul_add, sum_add_distrib]
  congr 1
  · simp only [mul_sum, sum_div, sum_mul]
    rw [sum_comm]
    refine sum_congr rfl fun d _ => sum_congr rfl fun j _ => ?_
    ring
  · rw [← sum_mul, ← sum_div, div_self hZ, one_mul]

end Cert.Attn.RealAlg
-- ==== Proof.Lift.lean ====
/-
  On real inputs the two sides are one function.

  Every operation of the specification keeps the reals inside the extended reals (a sum, a product, a quotient
  by a non-zero real, cos, exp), so on arrays of reals each side is the coercion of a real expression; the two
  real expressions agree by linearity of the mean (mean_proj) and by the softmax weights adding up to one,
  whatever their shift (softmax_collapse).  Only here is finiteness used: at an infinity neither
  distributivity nor the cancellation of the shift holds.
-/
import proofs.«408728_j1889785610324_3_alg».proof.Proof.Spec
import proofs.«408728_j1889785610324_3_alg».proof.Proof.RealCollapse

noncomputable section

namespace Cert.Attn.Lift

open Idealize.ShloMosaic Cert.Attn

/-- A finite sum of coerced reals is the coerced sum. -/
theorem coe_sum {ι : Type} [Fintype ι] (f : ι → ℝ) : (∑ i, ((f i : ℝ) : EReal)) = ((∑ i, f i : ℝ) : EReal) := by
  classical
  refine Finset.induction_on (Finset.univ : Finset ι) (by simp) fun a s ha ih => ?_
  rw [Finset.sum_insert ha, Finset.sum_insert ha, ih, EReal.coe_add]

/-- The divisor's pattern denotes the real 1024. -/
theorem c1024_eq : c1024 = ((1024 : ℝ) : EReal) := by
  simp [c1024, Ideal.ofBits, Ideal.ieee, -EReal.coe_mul]; norm_num

/-- A quotient of reals by a non-zero real stays real. -/
theorem div_coe_coe (a b : ℝ) (hb : b ≠ 0) : Ideal.div (a : EReal) (b : EReal) = ((a / b : ℝ) : EReal) := by
  rw [Ideal.div_coe hb, ← EReal.coe_mul, mul_one_div]

variable (xr : Fin 2048 → Fin 1024 → ℝ) (wk wv : Fin 1024 → Fin 1024 → ℝ) (bk bv : Fin 1024 → ℝ)

/-! ## The kernel's side on reals -/

theorem keyMean_coe (d : Fin 1024) :
    keyMean (fun e d => ((wk e d : ℝ) : EReal)) d = (((∑ e, wk e d) / 1024 : ℝ) : EReal) := by
  unfold keyMean
  rw [coe_sum, c1024_eq, div_coe_coe _ _ (by norm_num)]

theorem biasMean_coe : biasMean (fun e => ((bk e : ℝ) : EReal)) = (((∑ e, bk e) / 1024 : ℝ) : EReal) := by
  unfold biasMean
  rw [coe_sum, c1024_eq, div_coe_coe _ _ (by norm_num)]

/-- The kernel's real score of token j. -/
def sK (j : Fin 2048) : ℝ := Real.cos ((∑ d, xr j d * ((∑ e, wk e d) / 1024)) + (∑ e, bk e) / 1024)

theorem tokWeight_coe (j : Fin 2048) :
    tokWeight (fun j d => ((xr j d : ℝ) : EReal)) (keyMean fun e d => ((wk e d : ℝ) : EReal))
        (biasMean fun e => ((bk e : ℝ) : EReal)) j
      = ((Real.exp (sK xr wk bk j) : ℝ) : EReal) := by
  unfold tokWeight sK
  simp only [keyMean_coe, biasMean_coe, ← EReal.coe_mul]
  rw [coe_sum, ← EReal.coe_add, Ideal.cos_coe, Ideal.exp_coe]

theorem rowOut_coe (e : Fin 1024) :
    rowOut (fun j d => ((xr j d : ℝ) : EReal)) (keyMean fun e d => ((wk e d : ℝ) : EReal))
        (biasMean fun e => ((bk e : ℝ) : EReal)) (fun e d => ((wv e d : ℝ) : EReal)) (fun e => ((bv e : ℝ) : EReal)) e
      = (((∑ d, (∑ j, Real.exp (sK xr wk bk j) * xr j d) / (∑ j, Real.exp (sK xr wk bk j)) * wv e d) + bv e : ℝ) : EReal) := by
  have hZ : (∑ j, Real.exp (sK xr wk bk j)) ≠ 0 := (RealAlg.sum_exp_pos _).ne'
  unfold rowOut
  simp only [tokWeight_coe, ← EReal.coe_mul, coe_sum, div_coe_coe _ _ hZ, ← EReal.coe_add]

/-! ## The reference's side on reals -/

theorem proj_coe (w : Fin 1024 → Fin 1024 → ℝ) (bias : Fin 1024 → ℝ) (j : Fin 2048) (e : Fin 1024) :
    proj (fun j d => ((xr j d : ℝ) : EReal)) (fun e d => ((w e d : ℝ) : EReal)) (fun e => ((bias e : ℝ) : EReal)) j e
      = (((∑ d, xr j d * w e d) + bias e : ℝ) : EReal) := by
  unfold proj
  simp only [← EReal.coe_mul, coe_sum, ← EReal.coe_add]

/-- The reference's real score of token j. -/
def sR (j : Fin 2048) : ℝ := Real.cos ((∑ e, ((∑ d, xr j d * wk e d) + bk e)) / 1024)

theorem score_coe (j : Fin 2048) :
    score (fun j d => ((xr j d : ℝ) : EReal)) (fun e d => ((wk e d : ℝ) : EReal)) (fun e => ((bk e : ℝ) : EReal)) j
      = ((sR xr wk bk j : ℝ) : EReal) := by
  unfold score sR
  simp only [proj_coe, coe_sum, c1024_eq, div_coe_coe _ _ (by norm_num : (1024 : ℝ) ≠ 0), Ideal.cos_coe]

theorem attnOut_coe (M : ℝ) (e : Fin 1024) :
    attnOut (fun j d => ((xr j d : ℝ) : EReal)) (fun e d => ((wk e d : ℝ) : EReal)) (fun e => ((bk e : ℝ) : EReal))
        (fun e d => ((wv e d : ℝ) : EReal)) (fun e => ((bv e : ℝ) : EReal)) (M : EReal) e
      = ((∑ j, Real.exp (sR xr wk bk j - M) / (∑ j', Real.exp (sR xr wk bk j' - M)) * ((∑ d, xr j d * wv e d) + bv e) : ℝ) : EReal) := by
  have hZ : (∑ j', Real.exp (sR xr wk bk j' - M)) ≠ 0 := (RealAlg.sum_exp_pos _).ne'
  unfold attnOut
  simp only [score_coe, proj_coe, ← EReal.coe_sub, Ideal.exp_coe, coe_sum, div_coe_coe _ _ hZ, ← EReal.coe_mul]

/-! ## The two sides agree -/

/-- The two real scores are one: the mean of the key row is the token against the mean key weights. -/
theorem sR_eq_sK (j : Fin 2048) : sR xr wk bk j = sK xr wk bk j := by
  unfold sR sK
  rw [RealAlg.mean_proj]

/-- On real inputs, and with any real shift, the kernel's row is the reference's entry. -/
theorem rowOut_eq_attnOut (M : ℝ) (e : Fin 1024) :
    rowOut (fun j d => ((xr j d : ℝ) : EReal)) (keyMean fun e d => ((wk e d : ℝ) : EReal))
        (biasMean fun e => ((bk e : ℝ) : EReal)) (fun e d => ((wv e d : ℝ) : EReal)) (fun e => ((bv e : ℝ) : EReal)) e
      = attnOut (fun j d => ((xr j d : ℝ) : EReal)) (fun e d => ((wk e d : ℝ) : EReal)) (fun e => ((bk e : ℝ) : EReal))
          (fun e d => ((wv e d : ℝ) : EReal)) (fun e => ((bv e : ℝ) : EReal)) (M : EReal) e := by
  rw [rowOut_coe, attnOut_coe, RealAlg.softmax_collapse]
  simp only [sR_eq_sK]

end Cert.Attn.Lift

end
-- ==== Proof.FiniteInputs.lean ====
/-
  What the precondition says: every entry of every float argument is a real number.
-/
import proofs.«408728_j1889785610324_3_alg».proof.Pre_finite_inputs
import proofs.«408728_j1889785610324_3_alg».proof.Proof.Gen.Pre_finite_inputs
import Idealize.ShloMosaic.PureOps.Ideal
import Idealize.ShloMosaic.Lib.ReduceAll
import Idealize.ShloMosaic.Lib.ValueIdx

noncomputable section

namespace Cert.Attn.Finite

open Idealize.ShloMosaic Idealize.ShloMosaic.ValueIdx Cert.Pre_finite_inputs

/-- The f32 pattern 0x7F800000 denotes +∞. -/
theorem ofBits_inf : Ideal.ofBits .f32 0x7F800000#32 = (⊤ : EReal) := by simp [Ideal.ofBits, Ideal.ieee]

/-- An extended real whose absolute value max x (-x) lies below +∞ is a real number: at x = ⊥ the maximum is
    -⊥ = ⊤ and at x = ⊤ it is ⊤ itself. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ comes out 1, then x is a real number. -/
theorem real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  by_cases hlt : max (x : EReal) (-(x : EReal)) < ⊤
  · exact real_of_abs_lt_top x hlt
  · simp [Ideal.cmp, hlt] at h'

/-- One array, over any shape: if every entry passes the comparison |a i| < +∞, the array is the coercion of a
    real-valued array. -/
theorem real_array {s : Shape} (a : FVec Ideal s .f32)
    (h : ∀ i, FloatOps.cmpf .olt (FloatOps.hostAbsf (a i)) (FloatOps.ofBits (F := Ideal) .f32 0x7F800000#32) = 1#1) :
    ∃ x : s.Idx → ℝ, a = fun i => ((x i : ℝ) : EReal) := by
  choose x hx using fun i => real_of_cmp (a i) (h i)
  exact ⟨x, funext hx⟩

/-- The rank-0 shape has one index. -/
instance subsingleton_idx0 : Subsingleton S_.Idx := ⟨fun _ _ => funext fun d => d.elim0⟩

/-- If the printed precondition is all ones, each of the five arrays the two programs read is the coercion of a
    real-valued array (the two query arrays are finite too, and unused). -/
theorem real_of_pre (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (h : Cert.Pre_finite_inputs.fn (F := Ideal) a0 a1 a2 a3 a4 a5 a6 = fun _ => 1#1) :
    (∃ x : S4x2048x1024.Idx → ℝ, a0 = fun i => ((x i : ℝ) : EReal))
    ∧ (∃ w : S1024x1024.Idx → ℝ, a3 = fun i => ((w i : ℝ) : EReal))
    ∧ (∃ v : S1024.Idx → ℝ, a4 = fun i => ((v i : ℝ) : EReal))
    ∧ (∃ w : S1024x1024.Idx → ℝ, a5 = fun i => ((w i : ℝ) : EReal))
    ∧ (∃ v : S1024.Idx → ℝ, a6 = fun i => ((v i : ℝ) : EReal)) := by
  -- the one entry of the rank-0 result is the conjunction of the seven reductions
  have h0 := congrFun h ValueIdx.ix0
  dsimp only [fn, fn_part1, Idealize.ShloMosaic.andi] at h0
  simp only [IntOp.andi_eq_one] at h0
  obtain ⟨⟨⟨⟨⟨⟨h0, -⟩, -⟩, h3⟩, h4⟩, h5⟩, h6⟩ := h0
  -- each reduction by and over all axes being 1 says every entry of its array passed the comparison
  exact ⟨real_array a0 fun i => Host.reduce_andi_all _ _ _ _ ix0 h0 i,
    real_array a3 fun i => Host.reduce_andi_all _ _ _ _ ix0 h3 i,
    real_array a4 fun i => Host.reduce_andi_all _ _ _ _ ix0 h4 i,
    real_array a5 fun i => Host.reduce_andi_all _ _ _ _ ix0 h5 i,
    real_array a6 fun i => Host.reduce_andi_all _ _ _ _ ix0 h6 i⟩

end Cert.Attn.Finite

end
-- ==== Proof.Equal.lean ====
/-
  Under the precondition the reference computes the kernel's function.

  The precondition makes the five arrays real-valued; then every score is real, so the row maximum the reference
  subtracts is a real number, and on real inputs with a real shift the reference's entry at (b, i, e) is the
  kernel's output row of batch b at e.
-/
import proofs.«408728_j1889785610324_3_alg».proof.Proof.RefRead
import proofs.«408728_j1889785610324_3_alg».proof.Proof.Lift
import proofs.«408728_j1889785610324_3_alg».proof.Proof.FiniteInputs

noncomputable section

namespace Cert.Attn.Equal

open Idealize.ShloMosaic Idealize.ShloMosaic.ValueIdx Cert.ReferenceIdeal Cert.Attn

/-- With every input finite, the reference's result array is kernelArr of the same five arrays. -/
theorem ref_eq_kernelArr (X : FVec Ideal S4x2048x1024 .f32) (a1 : FVec Ideal S1024x1024 .f32) (a2 : FVec Ideal S1024 .f32)
    (Wk : FVec Ideal S1024x1024 .f32) (bk : FVec Ideal S1024 .f32) (Wv : FVec Ideal S1024x1024 .f32) (bv : FVec Ideal S1024 .f32)
    (h : Cert.Pre_finite_inputs.fn (F := Ideal) X a1 a2 Wk bk Wv bv = fun _ => 1#1) :
    Cert.ReferenceIdeal.Read.val_main_v29 (F := Ideal) X Wk bk Wv bv = kernelArr X Wk bk Wv bv := by
  obtain ⟨⟨x, rfl⟩, ⟨wk, rfl⟩, ⟨bk', rfl⟩, ⟨wv, rfl⟩, ⟨bv', rfl⟩⟩ := Finite.real_of_pre X a1 a2 Wk bk Wv bv h
  funext idx
  obtain ⟨b, i, e, rfl⟩ : ∃ (b : Fin 4) (i : Fin 2048) (e : Fin 1024), idx = ix3 b i e := ⟨idx 0, idx 1, idx 2, eq_ix3 idx⟩
  rw [Ref.ref_apply]
  have hs : ∀ j : Fin 2048, ∃ r : ℝ,
      score (rowsOf (fun i => ((x i : ℝ) : EReal)) b) (matOf fun i => ((wk i : ℝ) : EReal)) (vecOf fun i => ((bk' i : ℝ) : EReal)) j = (r : EReal) :=
    fun j => ⟨_, Lift.score_coe (fun j d => x (ix3 b j d)) (fun e d => wk (ix2 e d)) (fun e => bk' (ix1 e)) j⟩
  obtain ⟨M, hM⟩ := Ref.rowmax_real _ _ _ b i hs
  rw [hM]
  exact (Lift.rowOut_eq_attnOut (fun j d => x (ix3 b j d)) (fun e d => wk (ix2 e d)) (fun e d => wv (ix2 e d))
    (fun e => bk' (ix1 e)) (fun e => bv' (ix1 e)) M e).symm

end Cert.Attn.Equal

end
-- ==== Proof.lean ====
/-
  A fused attention kernel against its jnp reference, over the extended reals.

  The reference projects every token of a batch to keys and values, scores token j by the cosine of the mean of its
  key row, and averages the value rows with the softmax of the scores: a score that does not depend on the query,
  so every output row of a batch is the same.  The kernel uses that: it never forms a projection per token.  It
  takes the mean of the key weights and bias first (the mean of a projected row is the row against the mean
  weights), weighs token j by exp (cos score_j) with no shift, takes the weighted mean TOKEN, and projects that one
  row through the value weights, adding the value bias once (the softmax weights add up to one).  With every
  input finite all of this happens among the reals, where the shift of the softmax cancels and the sums
  distribute; the precondition is used for exactly that.

  The frames of both readings of the kernel are the generated ones; the reference's frame is its generated run
  with the result dropped; the ideal pass rewrote nothing, so preserves is trivial; algebraic is the kernel's run
  with its result array named (KernelArray), the reference's run, and the equality of the two value functions
  under the precondition (Equal).
-/
import proofs.«408728_j1889785610324_3_alg».proof.Defs
import proofs.«408728_j1889785610324_3_alg».proof.Proof.Gen.Kernel
import proofs.«408728_j1889785610324_3_alg».proof.Proof.Gen.Kernel.Skeleton
import proofs.«408728_j1889785610324_3_alg».proof.Proof.Gen.Kernel.Launch
import proofs.«408728_j1889785610324_3_alg».proof.Proof.Gen.Kernel.Points
import proofs.«408728_j1889785610324_3_alg».proof.Proof.Gen.Kernel.Frame
import proofs.«408728_j1889785610324_3_alg».proof.Proof.Gen.KernelIdeal
import proofs.«408728_j1889785610324_3_alg».proof.Proof.Gen.KernelIdeal.Skeleton
import proofs.«408728_j1889785610324_3_alg».proof.Proof.Gen.KernelIdeal.Launch
import proofs.«408728_j1889785610324_3_alg».proof.Proof.Gen.KernelIdeal.Points
import proofs.«408728_j1889785610324_3_alg».proof.Proof.Gen.KernelIdeal.Frame
import proofs.«408728_j1889785610324_3_alg».proof.Proof.Gen.ReferenceIdeal
import proofs.«408728_j1889785610324_3_alg».proof.Proof.Gen.Pre_finite_inputs
import proofs.«408728_j1889785610324_3_alg».proof.Proof.Gen.KernelIdeal.Value
import proofs.«408728_j1889785610324_3_alg».proof.Proof.Gen.ReferenceIdeal.Run
import proofs.«408728_j1889785610324_3_alg».proof.Proof.Gen.ReferenceIdeal.Read
import proofs.«408728_j1889785610324_3_alg».proof.Proof.KernelArray
import proofs.«408728_j1889785610324_3_alg».proof.Proof.Equal
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, both programs end with the same result array: the kernel's is
    kernelArr of its arguments, and under the precondition so is the reference's. -/
theorem algebraic : Cert.algebraic_KernelIdeal_ReferenceIdeal := by
  intro m ρ m' ρ' hpre hagree
  refine ⟨fun c => Cert.Attn.KArr.result m c, Cert.Attn.KArr.run m ρ, ?_⟩
  refine (θ_run Cert.ReferenceIdeal.defs _ _).mono (fun _ h c => ⟨(h c).1.trans ?_, (h c).2⟩)
    (Cert.ReferenceIdeal.Value.run (F := Ideal) m' ρ')
  obtain ⟨e0, -, -, e3, e4, e5, e6⟩ := hagree c
  rw [Cert.ReferenceIdeal.Read.val_main_v29_eq, e0, e3, e4, e5, e6]
  exact Cert.Attn.Equal.ref_eq_kernelArr _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
